-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S_ : Shape := ⟨0, ![]⟩
abbrev S8192x4096 : Shape := ⟨2, ![8192, 4096]⟩
abbrev S8192x16384 : Shape := ⟨2, ![8192, 16384]⟩
abbrev S256x4096 : Shape := ⟨2, ![256, 4096]⟩
abbrev S1024x4096 : Shape := ⟨2, ![1024, 4096]⟩
abbrev S256x1024 : Shape := ⟨2, ![256, 1024]⟩
abbrev S256 : Shape := ⟨1, ![256]⟩
abbrev S256x1 : Shape := ⟨2, ![256, 1]⟩
abbrev S4x2048x16384 : Shape := ⟨3, ![4, 2048, 16384]⟩

abbrev nBuf : Space → Nat
  | .hbm => 26
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .bf16⟩
  | .hbm, ⟨23, _⟩ => ⟨S8192x4096, .f32⟩
  | .hbm, ⟨24, _⟩ => ⟨S8192x16384, .f32⟩
  | .hbm, ⟨25, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S256x1024, .f32⟩
  | .local _ .vmem, ⟨5, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bitsLt_bf16_f32 : FTy.bits .bf16 < FTy.bits .f32
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  shapeCasts_S8192x16384_S4x2048x16384 : S8192x16384.ShapeCasts S4x2048x16384
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x16384.size a
  hwx0_2 : ∀ i : grid0.Coords, EltTy.bits .f32 = 32 ∨ (Rect.block (s := S8192x16384) S256x1024.size (cc0_transform_2 i) (hinb0_2 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v11) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S4096x16384 : Shape := ⟨2, ![4096, 16384]⟩
abbrev S8192x16384 : Shape := ⟨2, ![8192, 16384]⟩
abbrev S4x2048x16384 : Shape := ⟨3, ![4, 2048, 16384]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S4096x16384, .f32⟩
  | .hbm, ⟨43, _⟩ => ⟨S8192x16384, .f32⟩
  | .hbm, ⟨44, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  shapeCasts_S4x2048x4096_S8192x4096 : S4x2048x4096.ShapeCasts S8192x4096
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  transposes_S16384x4096_S4096x16384_1_0 : S16384x4096.Transposes [1, 0] S4096x16384
  shapeCasts_S8192x16384_S4x2048x16384 : S8192x16384.ShapeCasts S4x2048x16384
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.RowQuant.lean ====
/-
  Rows quantized against their own largest entry, and their products with the rows of a weight matrix.

  For a row `x` of `K` extended reals the row's SCALE is `g = max c (max_k |x k|)` with `c` a small positive floor
  (the f32 nearest to 1e-8); the maximum over the row starts from −∞, so an empty maximum never arises for `K > 0` and
  the floor is what an all-zero row gets. An entry is then QUANTIZED to `round(x k / g · 127) / 127 · g`, the rounding to
  the nearest integer with ties to the even one: `x k / g` lies in [−1, 1], so this is one of 255 levels of the scale.
  A matrix `X` of such rows meets a weight matrix `W`, stored with one ROW per output feature, in
  `out (r, n) = ∑ k, quantized (row r of X) k · W (n, k)`.

  Everything here is stated on the extended reals, where division, multiplication and rounding are the exact ones;
  nothing in this file needs an entry to be finite, because both programs this is used for apply the same operations in
  the same order to each entry: only the order of the sum over `k` and of the maximum over `k` is left open, and both are
  order-free (`+` and `max` on the extended reals are commutative and associative).
-/
import Idealize.ShloMosaic.Lib.ValueIdx
import Idealize.ShloMosaic.PureOps.Ideal.Laws

noncomputable section

namespace Cert.RowQuant

open Idealize.ShloMosaic Idealize.ShloMosaic.ValueIdx

/-- A row's scale: its largest absolute value (a maximum started from −∞), but never below the floor `c ≈ 1e-8`. -/
def rowScale {K : ℕ} (row : Fin K → EReal) : EReal :=
  max (Ideal.ofBits .f32 0x322BCC77#32)
    ((Finset.univ : Finset (Fin K)).fold max (Ideal.ofBits .f32 0xFF800000#32)
      (fun k => FloatOps.absf (F := Ideal) (φ := .f32) (row k)))

/-- One entry `x` at the scale `g`: `x / g · 127` rounded to the nearest integer (ties to even), over `127`, times `g`. -/
def quant (g x : EReal) : EReal :=
  Ideal.div (Ideal.liftRound Ideal.roundHalfEven (Ideal.div x g * Ideal.ofBits .f32 0x42FE0000#32))
    (Ideal.ofBits .f32 0x42FE0000#32) * g

/-- Entry `k` of a row quantized at the row's own scale. -/
def quantRow {K : ℕ} (row : Fin K → EReal) (k : Fin K) : EReal := quant (rowScale row) (row k)

/-- The scale depends on the row only through its entries. -/
theorem rowScale_congr {K : ℕ} {row row' : Fin K → EReal} (e : ∀ k, row k = row' k) : rowScale row = rowScale row' := by
  rw [show row = row' from funext e]

/-- So does a quantized entry. -/
theorem quantRow_congr {K : ℕ} {row row' : Fin K → EReal} (e : ∀ k, row k = row' k) (k : Fin K) :
    quantRow row k = quantRow row' k := by
  rw [show row = row' from funext e]

/-- Quantized rows of `X` against the rows of `W`: entry (r, n) is `∑ k, quantized (row r of X) k · W (n, k)`. -/
def qdot {M N K : ℕ} (X : (⟨2, ![M, K]⟩ : Shape).Idx → EReal) (W : (⟨2, ![N, K]⟩ : Shape).Idx → EReal) :
    (⟨2, ![M, N]⟩ : Shape).Idx → EReal :=
  fun i => ∑ k : Fin K, quantRow (fun k' => X (ix2 (i 0) k')) k * W (ix2 (i 1) k)

theorem qdot_apply {M N K : ℕ} (X : (⟨2, ![M, K]⟩ : Shape).Idx → EReal) (W : (⟨2, ![N, K]⟩ : Shape).Idx → EReal)
    (r : Fin M) (n : Fin N) :
    qdot X W (ix2 r n) = ∑ k : Fin K, quantRow (fun k' => X (ix2 r k')) k * W (ix2 n k) := rfl

end Cert.RowQuant

end
-- ==== Proof.KernelBody.lean ====
/-
  The kernel body's stored value at an index.

  At a grid point the body holds a block `x` of 256 rows of the activations (all 4096 columns of each) and a block
  `w` of 1024 rows of the dequantized weights. It takes each row's scale from that row alone — the maximum of the
  row's absolute values, floored at a small constant —, quantizes the row against it, and multiplies: the stored value
  at (p, q) is `∑ k, quantized (row p of x) k · w (q, k)`, both operands contracted on their columns. The narrowing of
  the quantized block to a shorter float format before the product changes nothing on the extended reals.
-/
import proofs.«172539_j11570641895430_1_alg».proof.Proof.Gen.KernelIdeal.Skeleton
import proofs.«172539_j11570641895430_1_alg».proof.Proof.RowQuant
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.RowQuant

/-! ## The product: both operands contracted on their columns -/

/-- The left operand's row is the result's row. -/
theorem lhs_row (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- Its column is the contraction position. -/
theorem lhs_col (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
/-- The right operand's row is the result's COLUMN. -/
theorem rhs_row (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- Its column is the contraction position. -/
theorem rhs_col (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The product into a zero accumulator, read at (p, q): the sum over the shared column `k` of the left operand at
    (p, k) times the right operand at (q, k). -/
theorem matmul_rows (lhs : FVec Ideal S256x4096 .bf16) (rhs : FVec Ideal S1024x4096 .bf16) (p : Fin 256) (q : Fin 1024) :
    matmul dot_S256x4096_S1024x4096_S256x1024_1_1_0_0_n_n none lhs rhs (constant (F := Ideal) S256x1024 .f32 0x00000000#32) (ix2 p q)
      = ∑ k : Fin 4096, lhs (ix2 p k) * rhs (ix2 q k) := by
  show FloatOps.matmul dot_S256x4096_S1024x4096_S256x1024_1_1_0_0_n_n none lhs rhs (constant (F := Ideal) S256x1024 .f32 0x00000000#32) (ix2 p q) = _
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun a => Fin.ext (by
    match a with
    | ⟨0, _⟩ => exact lhs_row _ _
    | ⟨1, _⟩ => exact (lhs_col _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun a => Fin.ext (by
    match a with
    | ⟨0, _⟩ => exact rhs_row _ _
    | ⟨1, _⟩ => exact (rhs_col _ _).trans hk)
  rw [el, er]

/-! ## The rows' scales -/

/-- A splat literal is the extended real its word denotes (stated for any word: nothing is evaluated). -/
theorem scalar_ofBits (b : BitVec 32) : Scalar.ofBits (F := Ideal) .f32 b = Ideal.ofBits .f32 b := rfl
/-- The block of absolute values, read at an index. -/
theorem absf_apply (x : FVec Ideal S256x4096 .f32) (i : S256x4096.Idx) :
    absf x i = FloatOps.absf (F := Ideal) (φ := .f32) (x i) := rfl
/-- The block rounded to the nearest integers (ties to even), read at an index. -/
theorem roundeven_apply (x : FVec Ideal S256x4096 .f32) (i : S256x4096.Idx) :
    roundeven x i = Ideal.liftRound Ideal.roundHalfEven (x i) := rfl

/-- The index over row `p` with column `k` inserted. -/
theorem lift_eq (p : Fin 256) (k : Fin 4096) : reduces_S256x4096_S256.lift (ix1 p) k = ix2 p k :=
  funext fun a => Fin.ext (by
    match a with
    | ⟨0, _⟩ => rfl
    | ⟨1, _⟩ => rfl)

/-- A row's maximum: the fold of `max` from −∞ over the row's entries, in any order. -/
theorem rowMax_apply (v : FVec Ideal S256x4096 .f32) (p : Fin 256) :
    multiReduction .maximumf [1] S256 v 0xFF800000#32 reduces_S256x4096_S256 (.inl rfl) rfl (ix1 p)
      = Finset.fold max (Ideal.ofBits .f32 0xFF800000#32) (fun k : Fin 4096 => v (ix2 p k)) Finset.univ :=
  (Ideal.multiReduction_maximumf_single v 0xFF800000#32 reduces_S256x4096_S256 (.inl rfl) rfl (ix1 p)).trans
    (congrArg (fun f : Fin 4096 → EReal => Finset.fold max (Ideal.ofBits .f32 0xFF800000#32) f Finset.univ)
      (funext fun k => congrArg v (lift_eq p k)))

/-- A vector of 256 entries as a column, read at (p, 0). -/
theorem asCol_apply (v : FVec Ideal S256 .f32) (p : Fin 256) :
    shapeCast S256x1 v shapeCasts_S256_S256x1 (ix2 p (0 : Fin 1)) = v (ix1 p) :=
  shapeCast_apply v shapeCasts_S256_S256x1 (ix2 p (0 : Fin 1)) (ix1 p) (by
    rw [Shape.rowMajor_val_one, Shape.rowMajor_val_two]; show p.val = p.val * 1 + 0; omega)

/-- A column laid along the 4096 columns, read at (p, k): the column's entry of row `p`. -/
theorem alongCols_apply (v : FVec Ideal S256x1 .f32) (p : Fin 256) (k : Fin 4096) :
    broadcastTo S256x4096 v broadcasts_S256x1_S256x4096 (ix2 p k) = v (ix2 p (0 : Fin 1)) :=
  broadcastTo_apply v broadcasts_S256x1_S256x4096 (ix2 p k) (ix2 p (0 : Fin 1)) (fun a => by
    match a with
    | ⟨0, _⟩ => show p.val = if (256 : ℕ) = 1 then 0 else p.val; rw [if_neg (by decide)]
    | ⟨1, _⟩ => show (0 : ℕ) = if (1 : ℕ) = 1 then 0 else k.val; rw [if_pos rfl])

/-- The block's column of scales: each row's largest absolute value, floored. -/
def scaleCol (x : FVec Ideal S256x4096 .f32) : FVec Ideal S256x1 .f32 :=
  maximumf (broadcast S256x1 (Scalar.ofBits (F := Ideal) .f32 0x322BCC77#32))
    (shapeCast S256x1
      (multiReduction .maximumf [1] S256 (absf x) 0xFF800000#32 reduces_S256x4096_S256 (.inl rfl) rfl)
      shapeCasts_S256_S256x1)

/-- Row `p`'s entry of that column is the scale of row `p`. -/
theorem scaleCol_apply (x : FVec Ideal S256x4096 .f32) (p : Fin 256) :
    scaleCol x (ix2 p (0 : Fin 1)) = rowScale (fun k : Fin 4096 => x (ix2 p k)) := by
  unfold scaleCol rowScale
  rw [maximumf_apply, broadcast_apply, scalar_ofBits, asCol_apply, rowMax_apply]
  simp only [absf_apply]

/-! ## The quantized block -/

/-- The block quantized row by row: divided by its rows' scales, times 127, rounded, over 127, times the scales. -/
def quantBlock (x : FVec Ideal S256x4096 .f32) : FVec Ideal S256x4096 .f32 :=
  mulf (divf (roundeven (mulf (divf x (broadcastTo S256x4096 (scaleCol x) broadcasts_S256x1_S256x4096))
      (broadcast S256x4096 (Scalar.ofBits (F := Ideal) .f32 0x42FE0000#32))))
      (broadcast S256x4096 (Scalar.ofBits (F := Ideal) .f32 0x42FE0000#32)))
    (broadcastTo S256x4096 (scaleCol x) broadcasts_S256x1_S256x4096)

/-- Its entry (p, k) is entry `k` of row `p` quantized at the row's own scale. -/
theorem quantBlock_apply (x : FVec Ideal S256x4096 .f32) (p : Fin 256) (k : Fin 4096) :
    quantBlock x (ix2 p k) = quantRow (fun k' : Fin 4096 => x (ix2 p k')) k := by
  unfold quantBlock quantRow quant
  rw [mulf_apply, divf_apply, roundeven_apply, mulf_apply, divf_apply, broadcast_apply, scalar_ofBits, alongCols_apply,
    scaleCol_apply]

/-! ## The stored value -/

/-- The body's stored value is the product of the quantized block, narrowed, with the weight block (the body's two
    shape casts are casts of a shape to itself). -/
theorem pay_eq (x : FVec Ideal S256x4096 .f32) (w : FVec Ideal S1024x4096 .bf16) :
    k0_pay1 (F := Ideal) x w
      = matmul dot_S256x4096_S1024x4096_S256x1024_1_1_0_0_n_n none (truncf .bf16 (quantBlock x) bitsLt_bf16_f32) w (constant (F := Ideal) S256x1024 .f32 0x00000000#32) := by
  unfold k0_pay1 quantBlock scaleCol
  simp only [shapeCast_self]

/-- The stored value at (p, q): row `p` of the activation block quantized at its own scale, against row `q` of the
    weight block. -/
theorem pay_apply (x : FVec Ideal S256x4096 .f32) (w : FVec Ideal S1024x4096 .bf16) (p : Fin 256) (q : Fin 1024) :
    k0_pay1 (F := Ideal) x w (ix2 p q) = ∑ k : Fin 4096, quantRow (fun k' : Fin 4096 => x (ix2 p k')) k * w (ix2 q k) := by
  rw [pay_eq]
  refine (matmul_rows _ _ p q).trans ?_
  refine Finset.sum_congr rfl fun k _ => ?_
  rw [truncf_apply, quantBlock_apply]

end Cert.KernelIdeal.Body

end
-- ==== Proof.Entry.lean ====
/-
  The two arrays the kernel's region stages, as the host leaves them before the region.

  The activations [4, 2048, 4096] are reshaped to 8192 rows of 4096. The weights [16384, 4096] are replaced by their
  TERNARY quantization: with `α = (∑ |w|) / 2²⁶ + c` — the mean absolute weight plus a small constant —, each weight
  becomes `clamp (round (w / α), −1, 1) · α`, one of `−α, 0, α`; the result is then narrowed to a shorter float format,
  which on the extended reals changes nothing. The same ternary array, by the same operations in the same order, is
  what the reference multiplies by; so it is named here once (`ternary`) and never opened.
-/
import proofs.«172539_j11570641895430_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The weights quantized to the three levels `−α, 0, α`, with `α` the mean absolute weight plus a small constant. -/
def ternary (w : FVec F S16384x4096 .f32) : FVec F S16384x4096 .f32 :=
  mulf (minimumf (broadcastInDim S16384x4096 ![] bcast_S_S16384x4096 (id (constant (F := F) S_ .f32 0x3F800000#32))) (maximumf (broadcastInDim S16384x4096 ![] bcast_S_S16384x4096 (id (constant (F := F) S_ .f32 0xBF800000#32))) (Host.roundeven (Host.divf w (broadcastInDim S16384x4096 ![] bcast_S_S16384x4096 (addf (Host.divf (Host.reduceAdd (Host.absf w) (constant (F := F) S_ .f32 0x00000000#32) reducesTo_S16384x4096_S_d0_1 h_S_) (constant (F := F) S_ .f32 0x4C800000#32)) (constant (F := F) S_ .f32 0x322BCC77#32))))))) (broadcastInDim S16384x4096 ![] bcast_S_S16384x4096 (addf (Host.divf (Host.reduceAdd (Host.absf w) (constant (F := F) S_ .f32 0x00000000#32) reducesTo_S16384x4096_S_d0_1 h_S_) (constant (F := F) S_ .f32 0x4C800000#32)) (constant (F := F) S_ .f32 0x322BCC77#32)))

/-- The rounding the host applies to the scaled weights, as one operation between two buffers of the same type. -/
theorem round_ops : (hostOps0_1 : List (HloOp τ sig (Elt F)))
    = [ unary main_v5 main_v6 (Host.roundeven : (⟨S16384x4096, .f32⟩ : BufTy).Contents (Elt F) → (⟨S16384x4096, .f32⟩ : BufTy).Contents (Elt F)) ] := rfl

/-- The clamp to [−1, 1] the host applies next, as six operations between buffers of their stated types. -/
theorem clamp_ops : (hostOps0_3 : List (HloOp τ sig (Elt F)))
    = [ unary main_cst_2 main_call1_v0 (id : (⟨S_, .f32⟩ : BufTy).Contents (Elt F) → (⟨S_, .f32⟩ : BufTy).Contents (Elt F)),
        unary main_call1_v0 main_call1_v1 ((broadcastInDim S16384x4096 ![] bcast_S_S16384x4096) : (⟨S_, .f32⟩ : BufTy).Contents (Elt F) → (⟨S16384x4096, .f32⟩ : BufTy).Contents (Elt F)),
        binary main_call1_v1 main_v6 main_call1_v2 (maximumf : (⟨S16384x4096, .f32⟩ : BufTy).Contents (Elt F) → (⟨S16384x4096, .f32⟩ : BufTy).Contents (Elt F) → (⟨S16384x4096, .f32⟩ : BufTy).Contents (Elt F)),
        unary main_cst_3 main_call1_v3 (id : (⟨S_, .f32⟩ : BufTy).Contents (Elt F) → (⟨S_, .f32⟩ : BufTy).Contents (Elt F)),
        unary main_call1_v3 main_call1_v4 ((broadcastInDim S16384x4096 ![] bcast_S_S16384x4096) : (⟨S_, .f32⟩ : BufTy).Contents (Elt F) → (⟨S16384x4096, .f32⟩ : BufTy).Contents (Elt F)),
        binary main_call1_v4 main_call1_v2 main_v7 (minimumf : (⟨S16384x4096, .f32⟩ : BufTy).Contents (Elt F) → (⟨S16384x4096, .f32⟩ : BufTy).Contents (Elt F) → (⟨S16384x4096, .f32⟩ : BufTy).Contents (Elt F)) ] := rfl

variable (m : (ℓ : Loc nD τ sig) → Buf (Elt F) ℓ)

set_option maxRecDepth 8192 in
/-- The weight array the region finds: the ternary quantization of the weights as launched, narrowed. -/
theorem entry_weights (c : Dev nD) :
    V m c main_v10 = truncf .bf16 (ternary (m ((c : Thread nD τ).loc main_arg1))) bitsLt_bf16_f32 := by
  dsimp only [Gen.V, Gen.V0]
  simp only [round_ops, clamp_ops, Gen.hostOps0, Gen.hostOps0_2, Gen.hostOps0_4, List.flatten_cons, List.flatten_nil,
    List.append_nil, List.cons_append, List.nil_append]
  after_results_simp
  rfl

set_option maxRecDepth 8192 in
/-- The activation array the region finds: the activations as launched, as 8192 rows. -/
theorem entry_rows (c : Dev nD) :
    V m c main_v11 = shapeCast S8192x4096 (m ((c : Thread nD τ).loc main_arg0)) shapeCasts_S4x2048x4096_S8192x4096 := by
  dsimp only [Gen.V, Gen.V0]
  simp only [round_ops, clamp_ops, Gen.hostOps0, Gen.hostOps0_2, Gen.hostOps0_4, List.flatten_cons, List.flatten_nil,
    List.append_nil, List.cons_append, List.nil_append]
  after_results_simp
  rfl

end Cert.KernelIdeal.Entry

end
-- ==== Proof.KernelValue.lean ====
/-
  The kernel's result array.

  The grid has 16 × 32 points; point `t` holds the activation rows `256·(t mod 32) …` (all 4096 columns), the weight
  rows `1024·(t div 32) …`, and writes the 256 × 1024 block of the result at block row `t mod 32`, block column
  `t div 32`. A row's scale needs the whole row, and every block holds whole rows: so the block's quantized row `p`
  is the quantized row `256·(t mod 32) + p` of the whole array, and what the point writes is its block of ONE
  function of the two staged arrays, the quantized-rows product. The 512 blocks tile the 8192 × 16384 result, so
  after the run the result array is that product; the host then only reshapes it to [4, 2048, 16384].
-/
import proofs.«172539_j11570641895430_1_alg».proof.Proof.Gen.KernelIdeal.Frame
import proofs.«172539_j11570641895430_1_alg».proof.Proof.KernelBody
import proofs.«172539_j11570641895430_1_alg».proof.Proof.Entry
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Cert.RowQuant
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The activation rows as the region finds them. -/
abbrev rows (c : Dev nD) : FVec Ideal S8192x4096 .f32 := V m c main_v11
/-- The ternary weights as the region finds them. -/
abbrev wts (c : Dev nD) : FVec Ideal S16384x4096 .bf16 := V m c main_v10

theorem hz : (![0, 0] : Fin 2 → Nat) = fun _ => 0 := funext fun a => by fin_cases a <;> rfl

/-- The printed index maps over the 512 points: the result's block row is `t mod 32` and its block column `t div 32`;
    the activations' block row is the result's, the weights' block row is the result's block column, and both input
    windows hold all columns. -/
theorem idx_facts : ∀ t : Fin cfg0.N,
    win0_2.index t (0 : Fin 2) = t.val % 32 ∧ win0_2.index t (1 : Fin 2) = t.val / 32
    ∧ win0_0.index t (0 : Fin 2) = t.val % 32 ∧ win0_0.index t (1 : Fin 2) = 0
    ∧ win0_1.index t (0 : Fin 2) = t.val / 32 ∧ win0_1.index t (1 : Fin 2) = 0 :=
  (by decide +kernel : ∀ t : Fin grid0.N, _)

/-! ## The input blocks, read where the result's block says -/

/-- Row `p` of point `t`'s activation block is row `r = 256·(t mod 32) + p` of the activations. -/
theorem rows_blk (c : Dev nD) (t : Fin cfg0.N) (p : Fin 256) (k : Fin 4096) (r : Fin 8192)
    (hr : r.val = t.val % 32 * 256 + p.val) : iblk m c 0 t (ix2 p k) = rows m c (ix2 r k) := by
  obtain ⟨-, -, e0, e1, -, -⟩ := idx_facts t
  show V m c main_v11 (((cfg0.win 0).blk t).view.emb (ix2 p k)) = V m c main_v11 (ix2 r k)
  refine congrArg (V m c main_v11) (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- Row `q` of point `t`'s weight block is row `n = 1024·(t div 32) + q` of the ternary weights. -/
theorem wts_blk (c : Dev nD) (t : Fin cfg0.N) (q : Fin 1024) (k : Fin 4096) (n : Fin 16384)
    (hn : n.val = t.val / 32 * 1024 + q.val) : iblk m c 1 t (ix2 q k) = wts m c (ix2 n k) := by
  obtain ⟨-, -, -, -, e0, e1⟩ := idx_facts t
  show V m c main_v10 (((cfg0.win 1).blk t).view.emb (ix2 q k)) = V m c main_v10 (ix2 n k)
  refine congrArg (V m c main_v10) (funext fun a => Fin.ext ?_)
  match a with
  | ⟨0, _⟩ => show win0_1.index t (0 : Fin 2) * 1024 + 1 * q.val = n.val; omega
  | ⟨1, _⟩ => show win0_1.index t (1 : Fin 2) * 4096 + 1 * k.val = k.val; omega

/-! ## What a point writes back -/

/-- Point `t` writes back its block of the quantized-rows product of the two staged arrays. -/
theorem flushed_eq (c : Dev nD) (t : Fin cfg0.N) :
    (dats m 0 c).flushed 2 t = ((cfg0.win 2).blk t).view.read (Elt Ideal) (qdot (rows m c) (wts m c)) := by
  show (cfg0.win 2).cut (grid0.coords t) ((dats m 0 c).after 2 t) = _
  rw [after0_2]
  unfold out0_2
  rw [View.canon_unit_zero hz]
  simp only [View.ld_unit_zero (S := S256x4096) hz, View.ld_unit_zero (S := S1024x4096) hz]
  obtain ⟨e0, e1, -, -, -, -⟩ := idx_facts t
  funext j
  obtain ⟨p, q, rfl⟩ : ∃ (p : Fin 256) (q : Fin 1024), j = ix2 p q := ⟨j 0, j 1, eq_ix2 j⟩
  show k0_pay1 (F := Ideal) (iblk m c 0 t) (iblk m c 1 t) (ix2 p q)
    = qdot (rows m c) (wts m c) (((cfg0.win 2).blk t).view.emb (ix2 p q))
  refine (pay_apply (iblk m c 0 t) (iblk m c 1 t) p q).trans ?_
  have h0 : ((((cfg0.win 2).blk t).view.emb (ix2 p q)) 0).val = t.val % 32 * 256 + p.val := by
    show win0_2.index t (0 : Fin 2) * 256 + 1 * p.val = _; omega
  have h1 : ((((cfg0.win 2).blk t).view.emb (ix2 p q)) 1).val = t.val / 32 * 1024 + q.val := by
    show win0_2.index t (1 : Fin 2) * 1024 + 1 * q.val = _; omega
  unfold qdot
  refine Finset.sum_congr rfl fun k _ => ?_
  rw [wts_blk m c t q k _ h1]
  exact congrArg (· * _) (quantRow_congr (fun k' => rows_blk m c t p k' _ h0) k)

/-! ## The blocks tile the result -/

/-- An index of the result is in point `t`'s block iff each coordinate is in the block's range on its axis. -/
theorem mem_blk (t : Fin cfg0.N) (i : S8192x16384.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v12).slice (win0_2.rect t)).set ↔ _
  rw [View.set_slice_whole, Rect.mem_set_unit]
  exact Iff.rfl

/-- Every index of the result is in the block of the point `32·(column div 1024) + (row div 256)`. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have hN : grid0.N = 512 := N_0
  have hlt : (i 1).val / 1024 * 32 + (i 0).val / 256 < grid0.N := by omega
  obtain ⟨e0, e1, -, -, -, -⟩ := idx_facts ⟨(i 1).val / 1024 * 32 + (i 0).val / 256, hlt⟩
  refine ⟨⟨(i 1).val / 1024 * 32 + (i 0).val / 256, hlt⟩, flush0_2 _, ?_⟩
  rw [mem_blk]
  intro a
  match a with
  | ⟨0, _⟩ =>
    show win0_2.index ⟨(i 1).val / 1024 * 32 + (i 0).val / 256, hlt⟩ (0 : Fin 2) * 256 ≤ (i 0).val
      ∧ (i 0).val < win0_2.index ⟨(i 1).val / 1024 * 32 + (i 0).val / 256, hlt⟩ (0 : Fin 2) * 256 + 256
    simp only [] at e0
    omega
  | ⟨1, _⟩ =>
    show win0_2.index ⟨(i 1).val / 1024 * 32 + (i 0).val / 256, hlt⟩ (1 : Fin 2) * 1024 ≤ (i 1).val
      ∧ (i 1).val < win0_2.index ⟨(i 1).val / 1024 * 32 + (i 0).val / 256, hlt⟩ (1 : Fin 2) * 1024 + 1024
    simp only [] at e1
    omega

/-- The result array after the run: the quantized-rows product of the two staged arrays. -/
theorem final (c : Dev nD) : (dats m 0 c).arrAt 2 cfg0.N = qdot (rows m c) (wts m c) :=
  (dats m 0 c).arrAt_eq_of_cover 2 (qdot (rows m c) (wts m c)) (fun t _ => flushed_eq m c t) cover

/-! ## The host's reshape after the region, and the run -/

/-- The program's result: the result array, reshaped. -/
theorem tail_eq (c : Dev nD) :
    Pipeline.afterTail₀ cfgs (dats m) 0 (V0 m) [hostOps1] c main_v13
      = shapeCast S4x2048x16384 (qdot (rows m c) (wts m c)) shapeCasts_S8192x16384_S4x2048x16384 := by
  unfold Pipeline.afterTail₀
  show StableHlo.after hostOps1 _ (Proc.devRef .tc main_v13) = _
  after_results
  exact congrArg (fun A => shapeCast S4x2048x16384 A shapeCasts_S8192x16384_S4x2048x16384)
    ((Pipeline.withArrays_arr spec0 launch0.win.arr_inj c _ _ 2).trans (final m c))

/-- Every weakly fair execution terminates with the result at the reshaped quantized-rows product of the staged
    arrays, the arguments unchanged. -/
theorem run : θ_run defs (onTc (τ := τ) (main (F := Ideal))) ⟨m, fun _ => 0, ρ⟩ fun r => ∀ c : Dev nD,
      r.2.mem ((c : Thread nD τ).loc main_v13)
          = shapeCast S4x2048x16384 (qdot (rows m c) (wts m c)) shapeCasts_S8192x16384_S4x2048x16384
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v13 (Pipeline.mem_restRefs_of main_v13 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's product, read at an index.

  The reference reshapes the activations to 8192 rows, takes each row's scale (the maximum of the row's absolute
  values, floored), quantizes the row against it, transposes the ternary weights, and multiplies rows by columns. Read
  at (r, n), the transposed weights' column `n` is the weights' row `n`, so the entry is
  `∑ k, quantized (row r) k · W (n, k)`: the same quantized-rows product the kernel's blocks make.
-/
import proofs.«172539_j11570641895430_1_alg».proof.Proof.RefRead
import proofs.«172539_j11570641895430_1_alg».proof.Proof.RowQuant
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Cert.RowQuant

variable (x0 : (⟨S4x2048x4096, .f32⟩ : BufTy).Contents (Elt Ideal)) (x1 : (⟨S16384x4096, .f32⟩ : BufTy).Contents (Elt Ideal))

/-- The maximum over a row's columns drops axis 1 of an 8192 × 4096 array. -/
theorem reduces_rows : S8192x4096.Reduces [1] S8192 := by decide

/-- The index over row `r` with column `k` inserted. -/
theorem lift_eq (r : Fin 8192) (k : Fin 4096) : reduces_rows.lift (ix1 r) k = ix2 r k :=
  funext fun a => Fin.ext (by
    match a with
    | ⟨0, _⟩ => rfl
    | ⟨1, _⟩ => rfl)

/-- A fold of the float maximum at the ideal values is a fold of `max` (stated over variables: nothing is evaluated). -/
theorem fold_maximumf {K : ℕ} (b : EReal) (f : Fin K → EReal) :
    Finset.fold (FloatOps.maximumf (F := Ideal) (φ := .f32)) b f Finset.univ = Finset.fold max b f Finset.univ := rfl

/-- The reshaped activations' absolute values, read at an index. -/
theorem abs_apply (i : S8192x4096.Idx) :
    val_main_v11 (F := Ideal) x0 i = FloatOps.absf (F := Ideal) (φ := .f32) (val_main_v10 (F := Ideal) x0 i) := by
  rw [val_main_v11_apply, Ideal.hostAbsf_def]

/-- A row's maximum of absolute values: the fold of `max` from −∞ over the row of the reshaped activations. -/
theorem rowMax_apply (r : Fin 8192) :
    val_main_v12 (F := Ideal) x0 (ix1 r)
      = Finset.fold max (Ideal.ofBits .f32 0xFF800000#32)
          (fun k : Fin 4096 => FloatOps.absf (F := Ideal) (φ := .f32) (val_main_v10 (F := Ideal) x0 (ix2 r k))) Finset.univ := by
  unfold val_main_v12
  refine (Host.reduce_eq_fold_single (FloatOps.maximumf (F := Ideal) (φ := .f32)) (val_main_v11 (F := Ideal) x0)
    (val_main_cst_4 (F := Ideal)) reducesTo_S8192x4096_S8192_d1 reduces_rows h_S_ (ix1 r)).trans ?_
  rw [fold_maximumf, val_main_cst_4_apply, Ideal.ofBits_def]
  exact congrArg (fun f : Fin 4096 → EReal => Finset.fold max (Ideal.ofBits .f32 0xFF800000#32) f Finset.univ)
    (funext fun k : Fin 4096 => (congrArg (val_main_v11 (F := Ideal) x0) (lift_eq r k)).trans (abs_apply x0 (ix2 r k)))

/-- The scale of row `r`, as the reference lays it out in a column. -/
theorem scale_apply (r : Fin 8192) :
    val_main_v14 (F := Ideal) x0 (ix2 r (0 : Fin 1)) = rowScale (fun k : Fin 4096 => val_main_v10 (F := Ideal) x0 (ix2 r k)) := by
  have e13 : idx_main_v13 (ix2 r (0 : Fin 1)) = ix1 r := funext fun a => Fin.ext (by match a with | ⟨0, _⟩ => rfl)
  rw [val_main_v14_apply, val_main_call2_v1_apply, val_main_call2_v0_apply, val_main_cst_5_apply, val_main_v13_apply, e13,
    rowMax_apply, Ideal.maximumf_def, Ideal.ofBits_def]
  rfl

/-- Entry (r, k) of the quantized activations. -/
theorem quant_apply (r : Fin 8192) (k : Fin 4096) :
    val_main_v23 (F := Ideal) x0 (ix2 r k) = quantRow (fun k' : Fin 4096 => val_main_v10 (F := Ideal) x0 (ix2 r k')) k := by
  have e15 : idx_main_v15 (ix2 r k) = ix2 r (0 : Fin 1) := funext fun a => Fin.ext (by
    match a with
    | ⟨0, _⟩ => rfl
    | ⟨1, _⟩ => rfl)
  have e22 : idx_main_v22 (ix2 r k) = ix2 r (0 : Fin 1) := funext fun a => Fin.ext (by
    match a with
    | ⟨0, _⟩ => rfl
    | ⟨1, _⟩ => rfl)
  rw [val_main_v23_apply, val_main_v21_apply, val_main_v19_apply, val_main_v18_apply, val_main_v16_apply, val_main_v15_apply,
    val_main_v22_apply, val_main_v17_apply, val_main_v20_apply, val_main_cst_6_apply, val_main_cst_7_apply, e15, e22, scale_apply,
    Ideal.mulf_def, Ideal.mulf_def, Ideal.hostDivf_def, Ideal.hostDivf_def, Ideal.hostUnary_roundeven_def, Ideal.ofBits_def]
  rfl

/-- The reference's product at (r, n): the quantized row `r` against row `n` of the ternary weights. -/
theorem product_eq :
    val_main_v25 (F := Ideal) x0 x1 = qdot (val_main_v10 (F := Ideal) x0) (val_main_v9 (F := Ideal) x1) := by
  funext i
  obtain ⟨r, n, rfl⟩ : ∃ (r : Fin 8192) (n : Fin 16384), i = ix2 r n := ⟨i 0, i 1, eq_ix2 i⟩
  rw [val_main_v25_apply, qdot_apply]
  refine Finset.sum_congr rfl fun k _ => ?_
  have el : lidx_main_v25 (ix2 r n) k = ix2 r k := funext fun a => Fin.ext (by
    match a with
    | ⟨0, _⟩ => rfl
    | ⟨1, _⟩ => rfl)
  have er : idx_main_v24 (ridx_main_v25 (ix2 r n) k) = ix2 n k := funext fun a => Fin.ext (by
    match a with
    | ⟨0, _⟩ => rfl
    | ⟨1, _⟩ => rfl)
  rw [val_main_v24_apply, el, er, quant_apply]

end Cert.ReferenceIdeal.RefValue

end
-- ==== Proof.lean ====
/-
  A linear layer on quantized operands: the kernel against its reference, over the extended reals.

  Both programs first replace the weights [16384, 4096] by their ternary quantization (three levels `−α, 0, α`, with
  `α` the mean absolute weight plus a small constant), by the same host operations in the same order; the kernel also
  narrows the result to a shorter float format, which on the extended reals is the identity. Both reshape the
  activations [4, 2048, 4096] to 8192 rows, quantize each row against its own scale — the row's largest absolute value,
  floored at a small constant — to 127 levels, and contract the quantized rows with the weights' rows:
  `out (r, n) = ∑ k, quantized (row r) k · W (n, k)`, reshaped to [4, 2048, 16384].

  The kernel does this block by block (256 rows × 1024 output features per grid point, every block holding whole rows,
  so a row's scale is computed from the whole row), the reference on the whole arrays through a transpose. Entry by
  entry both apply the same exact operations in the same order; what differs is only the order of the sum over `k` and
  of the maximum over `k`, and both are order-free. So no entry needs to be finite and the precondition is not opened.

  The kernel's side is read off its frame run (the blocks, the cover, the reshape after the region); the reference's
  side off its run, one operation at a time; this file joins the two and states the five claims.
-/
import proofs.«172539_j11570641895430_1_alg».proof.Defs
import proofs.«172539_j11570641895430_1_alg».proof.Proof.Gen.Kernel
import proofs.«172539_j11570641895430_1_alg».proof.Proof.Gen.Kernel.Skeleton
import proofs.«172539_j11570641895430_1_alg».proof.Proof.Gen.Kernel.Launch
import proofs.«172539_j11570641895430_1_alg».proof.Proof.Gen.Kernel.Points
import proofs.«172539_j11570641895430_1_alg».proof.Proof.Gen.Kernel.Frame
import proofs.«172539_j11570641895430_1_alg».proof.Proof.Gen.KernelIdeal
import proofs.«172539_j11570641895430_1_alg».proof.Proof.Gen.KernelIdeal.Skeleton
import proofs.«172539_j11570641895430_1_alg».proof.Proof.Gen.KernelIdeal.Launch
import proofs.«172539_j11570641895430_1_alg».proof.Proof.Gen.KernelIdeal.Points
import proofs.«172539_j11570641895430_1_alg».proof.Proof.Gen.KernelIdeal.Frame
import proofs.«172539_j11570641895430_1_alg».proof.Proof.Gen.ReferenceIdeal
import proofs.«172539_j11570641895430_1_alg».proof.Proof.Gen.Pre_finite_inputs
import proofs.«172539_j11570641895430_1_alg».proof.Proof.KernelValue
import proofs.«172539_j11570641895430_1_alg».proof.Proof.RefValue
import Idealize.ShloMosaic.Adequacy
import Idealize.ShloMosaic.Init

noncomputable section

namespace Cert.Proof

open Idealize.ShloMosaic Idealize.ShloMosaic.TcCoe Idealize.SL.Sem Cert.RowQuant

/-! ## The two sides meet -/

/-- The reference's ternary weights are the kernel's: the same operations in the same order, at any float values. -/
theorem ternary_eq {F : FTy → Type} [FloatOps F] (w : FVec F Cert.KernelIdeal.S16384x4096 .f32) :
    Cert.ReferenceIdeal.ReadP.val_main_v9 (F := F) w = Cert.KernelIdeal.Entry.ternary w := rfl

/-- Narrowing an array to a shorter float format is the identity on the extended reals. -/
theorem narrow_eq (A : FVec Ideal Cert.KernelIdeal.S16384x4096 .f32) :
    (truncf .bf16 A Cert.KernelIdeal.Facts₀.bitsLt_bf16_f32 : Cert.KernelIdeal.S16384x4096.Idx → EReal) = A := rfl

/-- The reference's result at the kernel's arguments is the kernel's result: the reshaped quantized-rows product of the
    reshaped activations with the ternary weights. -/
theorem result_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S4x2048x16384
          (qdot (Cert.KernelIdeal.KValue.rows m c) (Cert.KernelIdeal.KValue.wts m c))
          Cert.KernelIdeal.Facts₀.shapeCasts_S8192x16384_S4x2048x16384 := by
  have e1 : Cert.ReferenceIdeal.ReadP.val_main_v10 (F := Ideal)
        (m ((c.tc : Thread Cert.KernelIdeal.nD Cert.KernelIdeal.τ).loc Cert.KernelIdeal.main_arg0))
      = Cert.KernelIdeal.KValue.rows m c := (Cert.KernelIdeal.Entry.entry_rows m c).symm
  have e2 : Cert.ReferenceIdeal.ReadP.val_main_v9 (F := Ideal)
        (m ((c.tc : Thread Cert.KernelIdeal.nD Cert.KernelIdeal.τ).loc Cert.KernelIdeal.main_arg1))
      = Cert.KernelIdeal.KValue.wts m c :=
    (ternary_eq _).trans ((narrow_eq _).symm.trans (Cert.KernelIdeal.Entry.entry_weights m c).symm)
  unfold Cert.ReferenceIdeal.ReadP.val_main_v26
  rw [Cert.ReferenceIdeal.RefValue.product_eq, e1, e2]

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's result array ends at the reshaped quantized-rows product (its value leg), the reference's at its run's
    term of arguments that agree, and the two are one function of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v26_eq, (hagree c).1, (hagree c).2]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
